-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x512 : Shape := ⟨2, ![128, 512]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg2 : IVec S1048576 32) (main_v13 : IVec S_ 1) (main_v15 : IVec S1048576 1) (main_c_5 : IVec S_ 32) : IVec S_ 1 :=
  let main_v16 : IVec S1048576 32 := broadcastInDim S1048576 ![] bcast_S_S1048576 main_c_5
  let main_v17 : IVec S1048576 1 := cmpi .slt main_arg2 main_v16
  let main_v18 : IVec S1048576 1 := andi main_v15 main_v17
  let main_c_6 : IVec S_ 1 := constantI S_ 1 1#1
  let main_v19 : IVec S_ 1 := (fun x v => Host.reduce IntOp.andi x v reducesTo_S1048576_S_d0 h_S_) main_v18 main_c_6
  let main_v20 : IVec S_ 1 := andi main_v13 main_v19
  main_v20

def fn {F : FTy → Type} [FloatOps F] (main_arg0 : FVec F S1048576x128 .f32) (main_arg1 : FVec F S128x512 .f32) (main_arg2 : IVec S1048576 32) (main_arg3 : FVec F S1048576 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1048576 .f32 := Host.absf main_arg3
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_c_4 : IVec S_ 32 := constantI S_ 32 0#32
  let main_v14 : IVec S1048576 32 := broadcastInDim S1048576 ![] bcast_S_S1048576 main_c_4
  let main_v15 : IVec S1048576 1 := cmpi .sge main_arg2 main_v14
  let main_c_5 : IVec S_ 32 := constantI S_ 32 512#32
  fn_part1 (F := F) main_arg2 main_v13 main_v15 main_c_5
-- ==== Kernel.lean ====
abbrev S1048576x128 : Shape := ⟨2, ![1048576, 128]⟩
abbrev S128x512 : Shape := ⟨2, ![128, 512]⟩
abbrev S1048576 : Shape := ⟨1, ![1048576]⟩
abbrev S512x128 : Shape := ⟨2, ![512, 128]⟩
abbrev S512x256 : Shape := ⟨2, ![512, 256]⟩
abbrev S1048576x1 : Shape := ⟨2, ![1048576, 1]⟩
abbrev S1048576x2 : Shape := ⟨2, ![1048576, 2]⟩
abbrev S512 : Shape := ⟨1, ![512]⟩
abbrev S1x512 : Shape := ⟨2, ![1, 512]⟩
abbrev S8x512 : Shape := ⟨2, ![8, 512]⟩
abbrev S8192x128 : Shape := ⟨2, ![8192, 128]⟩
abbrev S8192x2 : Shape := ⟨2, ![8192, 2]⟩
abbrev S8192x1 : Shape := ⟨2, ![8192, 1]⟩
abbrev S8192x512 : Shape := ⟨2, ![8192, 512]⟩
abbrev S8192x256 : Shape := ⟨2, ![8192, 256]⟩

abbrev nBuf : Space → Nat
  | .hbm => 18
  | .vmem => 8
  | .smem => 0
  | _ => 0

abbrev bufTy : (tb : Table) → Fin (tcTables nBuf tb) → BufTy
  | .hbm, ⟨0, _⟩ => ⟨S1048576x128, .f32⟩
  | .hbm, ⟨1, _⟩ => ⟨S128x512, .f32⟩
  | .hbm, ⟨2, _⟩ => ⟨S1048576, .i32⟩
  | .hbm, ⟨3, _⟩ => ⟨S1048576, .f32⟩
  | .hbm, ⟨4, _⟩ => ⟨S512x128, .f32⟩
  | .hbm, ⟨5, _⟩ => ⟨S512x128, .bf16⟩
  | .hbm, ⟨6, _⟩ => ⟨S512x128, .f32⟩
  | .hbm, ⟨7, _⟩ => ⟨S512x128, .f32⟩
  | .hbm, ⟨8, _⟩ => ⟨S512x128, .bf16⟩
  | .hbm, ⟨9, _⟩ => ⟨S512x256, .bf16⟩
  | .hbm, ⟨10, _⟩ => ⟨S1048576, .f32⟩
  | .hbm, ⟨11, _⟩ => ⟨S1048576x1, .f32⟩
  | .hbm, ⟨12, _⟩ => ⟨S1048576x1, .f32⟩
  | .hbm, ⟨13, _⟩ => ⟨S1048576x2, .f32⟩
  | .hbm, ⟨14, _⟩ => ⟨S512, .i32⟩
  | .hbm, ⟨15, _⟩ => ⟨S1x512, .i32⟩
  | .hbm, ⟨16, _⟩ => ⟨S8x512, .i32⟩
  | .hbm, ⟨17, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S512x256, .bf16⟩
  | .local _ .vmem, ⟨3, _⟩ => ⟨S8192x2, .f32⟩
  | .local _ .vmem, ⟨4, _⟩ => ⟨S8192x2, .f32⟩
  | .local _ .vmem, ⟨5, _⟩ => ⟨S8x512, .i32⟩
  | .local _ .vmem, ⟨6, _⟩ => ⟨S8192x128, .f32⟩
  | .local _ .vmem, ⟨7, _⟩ => ⟨S8192x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x512_S512x128_1_0 : S128x512.Transposes [1, 0] S512x128
  bitsLt_bf16_f32 : FTy.bits .bf16 < FTy.bits .f32
  concatenates_S512x128_S512x128_S512x256_d1 : Shape.Concatenates [S512x128, S512x128] S512x256 1
  shapeCasts_S1048576_S1048576x1 : S1048576.ShapeCasts S1048576x1
  concatenates_S1048576x1_S1048576x1_S1048576x2_d1 : Shape.Concatenates [S1048576x1, S1048576x1] S1048576x2 1
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  slices_S8192x2_o0_0_S8192x1 : S8192x2.Slices ![0, 0] S8192x1
  slices_S8192x2_o0_1_S8192x1 : S8192x2.Slices ![0, 1] S8192x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  broadcasts_S8192x1_S8192x512 : S8192x1.Broadcasts S8192x512
  broadcasts_S1x512_S8192x512 : S1x512.Broadcasts S8192x512
  natLt_1_32 : 1 < 32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S8192x256_o0_0_S8192x128 : S8192x256.Slices ![0, 0] S8192x128
  slices_S8192x256_o0_128_S8192x128 : S8192x256.Slices ![0, 128] S8192x128
  inb_S8192x128_S8192x128_0_0 : ∀ a, (![0, 0] : Fin 2 → Nat) a + S8192x128.size a ≤ S8192x128.size a
  h_S8192x128 : 0 < S8192x128.numel
  broadcasts_S8192x1_S8192x128 : S8192x1.Broadcasts S8192x128
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x2.size a ≤ S1048576x2.size a
  hwx0_2 : ∀ i : grid0.Coords, EltTy.bits .f32 = 32 ∨ (Rect.block (s := S1048576x2) S8192x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .i32 = 32 ∨ (Rect.block (s := S8x512) S8x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x512 : Shape := ⟨2, ![128, 512]⟩
abbrev S1048576 : Shape := ⟨1, ![1048576]⟩
abbrev S512x128 : Shape := ⟨2, ![512, 128]⟩
abbrev S_ : Shape := ⟨0, ![]⟩
abbrev S1048576x1 : Shape := ⟨2, ![1048576, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128x512, .f32⟩
  | .hbm, ⟨2, _⟩ => ⟨S1048576, .i32⟩
  | .hbm, ⟨3, _⟩ => ⟨S1048576, .f32⟩
  | .hbm, ⟨4, _⟩ => ⟨S512x128, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1, .i32⟩
  | .hbm, ⟨14, _⟩ => ⟨S_, .i32⟩
  | .hbm, ⟨15, _⟩ => ⟨S1048576x1, .i32⟩
  | .hbm, ⟨16, _⟩ => ⟨S1048576x1, .i1⟩
  | .hbm, ⟨17, _⟩ => ⟨S1x1, .i32⟩
  | .hbm, ⟨18, _⟩ => ⟨S1048576x1, .i32⟩
  | .hbm, ⟨19, _⟩ => ⟨S1048576x1, .i1⟩
  | .hbm, ⟨20, _⟩ => ⟨S1048576x1, .i1⟩
  | .hbm, ⟨21, _⟩ => ⟨S_, .i1⟩
  | .hbm, ⟨22, _⟩ => ⟨S1048576, .i1⟩
  | .hbm, ⟨23, _⟩ => ⟨S1048576x128, .f32⟩
  | .hbm, ⟨24, _⟩ => ⟨S1048576x128, .i1⟩
  | .hbm, ⟨25, _⟩ => ⟨S_, .f32⟩
  | .hbm, ⟨26, _⟩ => ⟨S1048576x128, .f32⟩
  | .hbm, ⟨27, _⟩ => ⟨S1048576x128, .f32⟩
  | .hbm, ⟨28, _⟩ => ⟨S1048576x1, .f32⟩
  | .hbm, ⟨29, _⟩ => ⟨S1048576x128, .f32⟩
  | .hbm, ⟨30, _⟩ => ⟨S1048576x128, .f32⟩
  | .hbm, ⟨31, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  transposes_S128x512_S512x128_1_0 : S128x512.Transposes [1, 0] S512x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x128_0 : S1048576.BroadcastsInDim S1048576x128 (![0] : Fin 1 → Fin S1048576x128.rank)
  bcast_S_S1048576x128 : S_.BroadcastsInDim S1048576x128 (![] : Fin 0 → Fin S1048576x128.rank)
  bcast_S1048576x1_S1048576x128_0_1 : S1048576x1.BroadcastsInDim S1048576x128 (![0, 1] : Fin 2 → Fin S1048576x128.rank)
  gather_S512x128_S1048576x1_S1048576x128_1_0_n_n_0_1_1128_wf : GatherDims.WF S512x128 S1048576x1 S1048576x128 [1] [0] [] [0] [] 1 ![1, 128]

variable [Facts₀]

def gather_S512x128_S1048576x1_S1048576x128_1_0_n_n_0_1_1128 : GatherDims S512x128 S1048576x1 S1048576x128 where
  offsetDims := [1]
  collapsedSliceDims := [0]
  operandBatchingDims := []
  startIndicesBatchingDims := []
  startIndexMap := [0]
  indexVectorDim := 1
  sliceSizes := ![1, 128]
  wf := gather_S512x128_S1048576x1_S1048576x128_1_0_n_n_0_1_1128_wf

class Facts : Prop extends Facts₀ where

variable [Facts]
-- ==== Proof.RefRun.lean ====
/-
  The reference program, run.

  The reference is a straight line of host operations: the table transposed; the row gather (the index below
  zero wrapped by the table's height, laid out as a column of start indices, the in-range test of that column,
  the gather itself, and the choice between the gathered row and a fill value where the test fails); the scale
  broadcast along the rows; the product and the sum.  Listed in order, with the two functions the program calls
  written out at their call sites, they are the program, and running a list of host operations ends with every
  buffer at the operations' composed value of the launch contents.  The result buffer's value is named
  `refOut` here, as one term of the four argument arrays.
-/
import proofs.«410795_j76278619177037_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as one term of the arguments -/

/-- The gather's index: an index below zero has the table's height added. -/
def wrapped (idx : IVec S1048576 32) : IVec S1048576 32 :=
  select (cmpi .slt idx (broadcastInDim S1048576 ![] bcast_S_S1048576 (constantI S_ 32 0#32)))
    (addi idx (broadcastInDim S1048576 ![] bcast_S_S1048576 (constantI S_ 32 512#32))) idx

/-- The wrapped indices as a column of start indices. -/
def startCol (idx : IVec S1048576 32) : IVec S1048576x1 32 :=
  broadcastInDim S1048576x1 ![0] bcast_S1048576_S1048576x1_0 (wrapped idx)

/-- Per row, whether its start index lies between 0 and 511. -/
def inRange (idx : IVec S1048576 32) : IVec S1048576 1 :=
  Host.reduce IntOp.andi
    (andi (cmpi .sge (startCol idx) (broadcastInDim S1048576x1 ![] bcast_S_S1048576x1 (constantI S_ 32 0#32)))
      (cmpi .sle (startCol idx)
        (broadcastInDim S1048576x1 ![0, 1] bcast_S1x1_S1048576x1_0_1
          (broadcastInDim S1x1 ![1] bcast_S1_S1x1_1 (constantI S1 32 511#32)))))
    (constantI S_ 1 1#1) reducesTo_S1048576x1_S1048576_d1 h_S_

/-- The gathered rows of the transposed table, the fill value where the index is out of range. -/
def taken (a : FVec F S128x512 .f32) (idx : IVec S1048576 32) : FVec F S1048576x128 .f32 :=
  select (broadcastInDim S1048576x128 ![0] bcast_S1048576_S1048576x128_0 (inRange idx))
    (Host.gather gather_S512x128_S1048576x1_S1048576x128_1_0_n_n_0_1_1128
      (transpose S512x128 [1, 0] a transposes_S128x512_S512x128_1_0) (startCol idx))
    (broadcastInDim S1048576x128 ![] bcast_S_S1048576x128 (constant S_ .f32 0x7FC00000#32))

/-- The reference's result: z plus the gathered rows scaled row by row. -/
def refOut (z : FVec F S1048576x128 .f32) (a : FVec F S128x512 .f32) (idx : IVec S1048576 32)
    (scale : FVec F S1048576 .f32) : FVec F S1048576x128 .f32 :=
  addf z (mulf (taken a idx)
    (broadcastInDim S1048576x128 ![0, 1] bcast_S1048576x1_S1048576x128_0_1
      (broadcastInDim S1048576x1 ![0] bcast_S1048576_S1048576x1_0 scale)))

/-! ## The program as a list of operations -/

/-- The 28 operations, in order: the transpose, the 23 of the row gather (the select of the wrap-around in
    the middle of them), and the four that scale and add. -/
abbrev ops : List (HloOp τ sig (Elt F)) :=
  [ unary main_arg1 main_v0 ((transpose S512x128 [1, 0] · transposes_S128x512_S512x128_1_0) : (⟨S128x512, .f32⟩ : BufTy).Contents (Elt F) → (⟨S512x128, .f32⟩ : BufTy).Contents (Elt F)),
    TRef.nullary main_call0.c (constantI S_ 32 0#32),
    TRef.unary main_call0.c main_call0.v0 (broadcastInDim S1048576 ![] bcast_S_S1048576),
    TRef.binary (.of main_arg2) main_call0.v0 main_call0.v1 (cmpi .slt),
    TRef.nullary main_call0.c_0 (constantI S_ 32 512#32),
    TRef.unary main_call0.c_0 main_call0.v2 (broadcastInDim S1048576 ![] bcast_S_S1048576),
    TRef.binary (.of main_arg2) main_call0.v2 main_call0.v3 addi,
    TRef.ternary main_call0.v1 main_call0.v3 (.of main_arg2) main_call0.call0.v0 select,
    TRef.unary main_call0.call0.v0 main_call0.v5 (broadcastInDim S1048576x1 ![0] bcast_S1048576_S1048576x1_0),
    TRef.nullary main_call0.c_1 (constantI S1 32 511#32),
    TRef.nullary main_call0.c_2 (constantI S_ 32 0#32),
    TRef.unary main_call0.c_2 main_call0.v6 (broadcastInDim S1048576x1 ![] bcast_S_S1048576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1048576x1 ![0, 1] bcast_S1x1_S1048576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1048576x1_S1048576_d1 h_S_),
    TRef.binary (.of main_v0) main_call0.v5 main_call0.v13 (fun x i => Host.gather gather_S512x128_S1048576x1_S1048576x128_1_0_n_n_0_1_1128 x i),
    TRef.unary main_call0.v12 main_call0.v14 (broadcastInDim S1048576x128 ![0] bcast_S1048576_S1048576x128_0),
    TRef.nullary main_call0.cst (constant S_ .f32 0x7FC00000#32),
    TRef.unary main_call0.cst main_call0.v15 (broadcastInDim S1048576x128 ![] bcast_S_S1048576x128),
    TRef.ternary main_call0.v14 main_call0.v13 main_call0.v15 main_call0.v16 select,
    unary main_arg3 main_v2 (broadcastInDim S1048576x1 ![0] bcast_S1048576_S1048576x1_0 : (⟨S1048576, .f32⟩ : BufTy).Contents (Elt F) → (⟨S1048576x1, .f32⟩ : BufTy).Contents (Elt F)),
    unary main_v2 main_v3 (broadcastInDim S1048576x128 ![0, 1] bcast_S1048576x1_S1048576x128_0_1 : (⟨S1048576x1, .f32⟩ : BufTy).Contents (Elt F) → (⟨S1048576x128, .f32⟩ : BufTy).Contents (Elt F)),
    binary main_v1 main_v3 main_v4 (mulf : (⟨S1048576x128, .f32⟩ : BufTy).Contents (Elt F) → (⟨S1048576x128, .f32⟩ : BufTy).Contents (Elt F) → (⟨S1048576x128, .f32⟩ : BufTy).Contents (Elt F)),
    binary main_arg0 main_v4 main_v5 (addf : (⟨S1048576x128, .f32⟩ : BufTy).Contents (Elt F) → (⟨S1048576x128, .f32⟩ : BufTy).Contents (Elt F) → (⟨S1048576x128, .f32⟩ : BufTy).Contents (Elt F)) ]

set_option maxRecDepth 4096 in
/-- The program is that list run in order: the called functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., binary_bufs_sub ..⟩

/-- From any memory with zero counters every weakly fair execution of the reference terminates with every buffer
    at the operations' composed value of the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference's result buffer after the run is `refOut` of the argument arrays: each operation's value is read
  at the buffer it writes and passed over at every other buffer, so the composed value at the result buffer is
  the operations' term of the launch contents of the four arguments; the arguments themselves are written by
  no operation.
-/
import proofs.«410795_j76278619177037_3_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are unchanged. -/
theorem ofBuf_toBuf {T : BufTy} {Val : EltTy → Type} (x : TRef sig T) (v : T.Contents Val) : x.ofBuf (x.toBuf v) = v := by
  unfold TRef.ofBuf TRef.toBuf
  simp

/-- At a literal buffer whose type is the value's type the move is the identity. -/
theorem toBuf_main_v1 {Val : EltTy → Type} (h1 h2 h3) (v : (⟨S1048576x128, .f32⟩ : BufTy).Contents Val) :
    (TRef.of (T := ⟨S1048576x128, .f32⟩) main_v1 h1 h2 h3).toBuf v = v := rfl

set_option maxRecDepth 8192 in
set_option maxHeartbeats 1600000 in
/-- What the operations leave in the result buffer is `refOut` of the arguments' contents: the operations' values
    composed, the moves between a buffer's type and its value's type cancelling in pairs. -/
theorem out_eq (V : Valuation τ sig (Elt F)) :
    after ops V (main_v5 : DevRef τ sig)
      = refOut (V (main_arg0 : DevRef τ sig)) (V (main_arg1 : DevRef τ sig)) (V (main_arg2 : DevRef τ sig))
          (V (main_arg3 : DevRef τ sig)) := by
  unfold refOut taken inRange startCol wrapped
  after_results
  simp only [ofBuf_toBuf, toBuf_main_v1]
  have e2 : (TRef.of (T := ⟨S1048576, .i32⟩) main_arg2).ofBuf (V (main_arg2 : DevRef τ sig)) = V (main_arg2 : DevRef τ sig) := rfl
  have e0 : ∀ x : (⟨S512x128, .f32⟩ : BufTy).Contents (Elt F),
      (TRef.of (T := ⟨S512x128, .f32⟩) main_v0).ofBuf (Val := Elt F) x = x := fun _ => rfl
  rw [e2, e0]

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- From any memory with zero counters every weakly fair execution of the reference terminates with the result
    buffer at `refOut` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (out_eq _),
      (h c main_arg0).trans (arg0_eq _), (h c main_arg1).trans (arg1_eq _),
      (h c main_arg2).trans (arg2_eq _), (h c main_arg3).trans (arg3_eq _)⟩)
    (run_all m ρ)

end Cert.ReferenceIdeal.RefRun

end
-- ==== Proof.Spec.lean ====
/-
  The function both programs compute, and the two facts of arithmetic that join them.

  Row r of the result is row r of z plus the table column a[·, idx r] scaled by scale r:
      out[r, q] = z[r, q] + a[q, idx r] · scale r        (r < 1048576, q < 128, idx r < 512).

  The kernel selects the table row with a product of a 0/1 row against the table: a sum over the 512 rows in
  which exactly one factor is one and the others are zero, so the sum is the selected row's entry.  It keeps
  the table as a pair (a, a − a) and adds the two selected entries; for a real entry x this is x + (x − x) = x.
-/
import Idealize.ShloMosaic.PureOps.Ideal
import Idealize.ShloMosaic.Lib.ValueIdx

noncomputable section

namespace Cert.EmbedRow

open Idealize.ShloMosaic Idealize.ShloMosaic.ValueIdx

/-- The table row an index word selects: its value as a natural number, and the last row for any word past it. -/
def rowOf (w : BitVec 32) : Fin 512 := ⟨min w.toNat 511, by omega⟩

/-- For a word below 512 the selected row is the word's value. -/
theorem rowOf_of_lt {w : BitVec 32} (h : w.toNat < 512) : rowOf w = ⟨w.toNat, h⟩ :=
  Fin.ext (by show min w.toNat 511 = w.toNat; omega)

/-- Entry (r, q) of the result: z[r, q] + a[q, idx r] · scale r. -/
def specAt (z : (⟨2, ![1048576, 128]⟩ : Shape).Idx → EReal) (a : (⟨2, ![128, 512]⟩ : Shape).Idx → EReal)
    (idx : (⟨1, ![1048576]⟩ : Shape).Idx → BitVec 32) (scale : (⟨1, ![1048576]⟩ : Shape).Idx → EReal)
    (r : Fin 1048576) (q : Fin 128) : EReal :=
  z (ix2 r q) + a (ix2 q (rowOf (idx (ix1 r)))) * scale (ix1 r)

/-- The result as one function of the four argument arrays. -/
def spec (z : (⟨2, ![1048576, 128]⟩ : Shape).Idx → EReal) (a : (⟨2, ![128, 512]⟩ : Shape).Idx → EReal)
    (idx : (⟨1, ![1048576]⟩ : Shape).Idx → BitVec 32) (scale : (⟨1, ![1048576]⟩ : Shape).Idx → EReal) :
    (⟨2, ![1048576, 128]⟩ : Shape).Idx → EReal :=
  fun i => specAt z a idx scale (i 0) (i 1)

theorem spec_ix2 (z : (⟨2, ![1048576, 128]⟩ : Shape).Idx → EReal) (a : (⟨2, ![128, 512]⟩ : Shape).Idx → EReal)
    (idx : (⟨1, ![1048576]⟩ : Shape).Idx → BitVec 32) (scale : (⟨1, ![1048576]⟩ : Shape).Idx → EReal)
    (r : Fin 1048576) (q : Fin 128) : spec z a idx scale (ix2 r q) = specAt z a idx scale r q := rfl

/-- A sum against a 0/1 row with its single one at k0 is the term at k0. -/
theorem sum_onehot_mul {n : ℕ} (oh f : Fin n → EReal) (k0 : Fin n) (h1 : oh k0 = 1) (h0 : ∀ k, k ≠ k0 → oh k = 0) :
    ∑ k, oh k * f k = f k0 := by
  rw [Finset.sum_eq_single k0 (fun k _ hk => by rw [h0 k hk, zero_mul]) (fun h => absurd (Finset.mem_univ k0) h),
    h1, one_mul]

/-- For a real number x, x + (x − x) = x on the extended reals. -/
theorem add_sub_self_of_real (x : EReal) (hb : x ≠ ⊥) (ht : x ≠ ⊤) : x + (x - x) = x := by
  lift x to ℝ using ⟨ht, hb⟩
  rw [← EReal.coe_sub, sub_self, EReal.coe_zero, add_zero]

end Cert.EmbedRow

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.RefValue.lean ====
/-
  The reference's result at one entry, when every index is a row number of the table.

  With 0 ≤ idx r < 512 the wrap-around leaves the index as it is, the in-range test holds on every row, so the
  fill value is never chosen, and the gather reads row idx r of the transposed table: entry (r, q) of the
  gathered array is a[q, idx r].  The scale, broadcast along the rows, reads scale r there.  So entry (r, q) of
  the reference's result is z[r, q] + a[q, idx r] · scale r, the specification's entry.
-/
import proofs.«410795_j76278619177037_3_alg».proof.Proof.RefRun
import proofs.«410795_j76278619177037_3_alg».proof.Proof.Spec
import proofs.«410795_j76278619177037_3_alg».proof.Proof.LibIndexMaps
import proofs.«410795_j76278619177037_3_alg».proof.Proof.LibWordArith
import Idealize.ShloMosaic.Lib.Pipeline.Value
import Idealize.ShloMosaic.Lib.ValueLayout
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx
open Cert.EmbedRow Cert.Gcn.IndexMaps Cert.Gcn.WordArith

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

variable (idx : IVec S1048576 32) (hidx : ∀ p : Fin 1048576, (idx (ix1 p)).toNat < 512)
include hidx

/-- An index that is a row number is left as it is by the wrap-around. -/
theorem wrapped_apply (p : Fin 1048576) : wrapped idx (ix1 p) = idx (ix1 p) := by
  show Scalar.select (IntOp.cmpi .slt (idx (ix1 p)) 0#32) (IntOp.addi (idx (ix1 p)) 512#32) (idx (ix1 p)) = idx (ix1 p)
  exact select_slt_zero_small 512#32 (by have := hidx p; omega)

omit hidx in
/-- The column of start indices at (p, 0) is the wrapped index of row p. -/
theorem startCol_at (p : Fin 1048576) : startCol idx (ix2 p (0 : Fin 1)) = wrapped idx (ix1 p) :=
  broadcastInDim_apply _ _ (wrapped idx) (ix2 p (0 : Fin 1)) (ix1 p) (fun a => by
    match a with
    | ⟨0, _⟩ => exact (if_neg (by show ¬ ((1048576 : ℕ) = 1); decide)).symm)

theorem startCol_apply (p : Fin 1048576) : startCol idx (ix2 p (0 : Fin 1)) = idx (ix1 p) :=
  (startCol_at idx p).trans (wrapped_apply idx hidx p)

/-- Every row's start index passes the in-range test. -/
theorem inRange_apply (p : Fin 1048576) : inRange idx (ix1 p) = 1#1 := by
  unfold inRange
  rw [Host.reduce_eq_foldl]
  refine foldl_andi_ones _ _ (fun i _ => ?_)
  obtain ⟨r, e, rfl⟩ : ∃ (r : Fin 1048576) (e : Fin 1), i = ix2 r e := ⟨i 0, i 1, eq_ix2 i⟩
  obtain rfl : e = 0 := Subsingleton.elim _ _
  show IntOp.andi (IntOp.cmpi .sge (startCol idx (ix2 r (0 : Fin 1))) 0#32)
    (IntOp.cmpi .sle (startCol idx (ix2 r (0 : Fin 1))) 511#32) = 1#1
  have h := hidx r
  rw [startCol_apply idx hidx r, sge_small (by omega) (by decide), sle_small (by omega) (by decide),
    if_pos (by show (0 : ℕ) ≤ _; omega), if_pos (by show _ ≤ (511 : ℕ); omega)]
  decide

/-- Entry (p, q) of the gathered array is the table's entry (q, idx p). -/
theorem taken_apply (a : FVec Ideal S128x512 .f32) (p : Fin 1048576) (q : Fin 128) :
    taken a idx (ix2 p q) = a (ix2 q (rowOf (idx (ix1 p)))) := by
  have h := hidx p
  have hm : broadcastInDim S1048576x128 ![0] bcast_S1048576_S1048576x128_0 (inRange idx) (ix2 p q) = 1#1 :=
    (broadcastInDim_apply _ _ (inRange idx) (ix2 p q) (ix1 p) (fun a => by
      match a with
      | ⟨0, _⟩ => exact (if_neg (by show ¬ ((1048576 : ℕ) = 1); decide)).symm)).trans (inRange_apply idx hidx p)
  unfold taken
  rw [select_apply, hm, select_one,
    gather2_ix_apply gather_S512x128_S1048576x1_S1048576x128_1_0_n_n_0_1_1128 rfl rfl rfl rfl rfl _ (startCol idx) p q
      (idx (ix1 p)).toNat h (by rw [startCol_apply idx hidx p]; exact toInt_of_small (by omega)),
    rowOf_of_lt h]
  exact transpose_ix2_apply a transposes_S128x512_S512x128_1_0 _ q

/-- The reference's result is the specification. -/
theorem refOut_eq (z : FVec Ideal S1048576x128 .f32) (a : FVec Ideal S128x512 .f32) (scale : FVec Ideal S1048576 .f32) :
    refOut z a idx scale = spec z a idx scale := by
  funext i
  obtain ⟨p, q, rfl⟩ : ∃ (p : Fin 1048576) (q : Fin 128), i = ix2 p q := ⟨i 0, i 1, eq_ix2 i⟩
  rw [spec_ix2]
  have hs : broadcastInDim S1048576x128 ![0, 1] bcast_S1048576x1_S1048576x128_0_1
      (broadcastInDim S1048576x1 ![0] bcast_S1048576_S1048576x1_0 scale) (ix2 p q) = scale (ix1 p) :=
    (broadcastInDim_apply _ _ _ (ix2 p q) (ix2 p (0 : Fin 1)) (fun a => by
      match a with
      | ⟨0, _⟩ => exact (if_neg (by show ¬ ((1048576 : ℕ) = 1); decide)).symm
      | ⟨1, _⟩ => exact (if_pos rfl).symm)).trans
    (broadcastInDim_apply _ _ scale (ix2 p (0 : Fin 1)) (ix1 p) (fun a => by
      match a with
      | ⟨0, _⟩ => exact (if_neg (by show ¬ ((1048576 : ℕ) = 1); decide)).symm))
  unfold refOut
  rw [addf_apply, mulf_apply, hs, taken_apply idx hidx a p q]
  rfl

end Cert.ReferenceIdeal.RefValue

end
-- ==== Proof.PreRead.lean ====
/-
  What the precondition says, entry by entry.

  The precondition is the conjunction of four "for all entries" tests, each a reduction by `and` of a 0/1 array
  down to one bit: every entry of z, of the table a and of the scale has an absolute value below +∞, and every
  index word is at least 0 and below 512 as a signed number.  When the conjunction is 1 each reduction is 1, so
  each tested entry is 1.  For a table entry x, |x| < +∞ on the extended reals says x is neither −∞ nor +∞: a
  real number.  For an index word, 0 ≤ w < 512 signed says its value as a natural number is below 512.
-/
import proofs.«410795_j76278619177037_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Read

open Cert.Pre_finite_inputs Cert.Pre_finite_inputs.Gen Idealize.ShloMosaic Idealize.ShloMosaic.ValueIdx

instance : Subsingleton S_.Idx := ⟨fun _ _ => funext fun d => d.elim0⟩

/-- A 32-bit word that is at least 0 and below 512 as a signed number has a value below 512. -/
theorem word_lt {w : BitVec 32} (h0 : IntOp.cmpi .sge w 0#32 = 1#1) (h1 : IntOp.cmpi .slt w 512#32 = 1#1) :
    w.toNat < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  rw [BitVec.toInt_eq_toNat_cond] at h0 h1
  have := w.isLt
  split_ifs at h0 h1 <;> omega

/-- An extended real whose absolute value is below +∞ is a real number. -/
theorem real_of_abs_lt (x : EReal) (h : Ideal.cmp .olt (max x (-x)) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  rw [max_lt_iff] at hlt
  refine ⟨?_, ne_of_lt hlt.1⟩
  rintro rfl
  simp at hlt

variable (z : FVec Ideal S1048576x128 .f32) (a : FVec Ideal S128x512 .f32) (idx : IVec S1048576 32)
  (scale : FVec Ideal S1048576 .f32)

/-- Under the precondition every index word's value is below 512. -/
theorem idx_lt (h : fn (F := Ideal) z a idx scale = fun _ => 1#1) (p : Fin 1048576) : (idx (ix1 p)).toNat < 512 := by
  have h0 := congrFun h ix0
  dsimp only [fn, fn_part1] at h0
  obtain ⟨-, h19⟩ := IntOp.andi_eq_one.1 h0
  have hp := Host.reduce_andi_all _ _ _ _ _ h19 (ix1 p)
  obtain ⟨hge, hlt⟩ := IntOp.andi_eq_one.1 hp
  exact word_lt hge hlt

/-- Under the precondition every entry of the table is a real number. -/
theorem a_real (h : fn (F := Ideal) z a idx scale = fun _ => 1#1) (i : S128x512.Idx) : a i ≠ ⊥ ∧ a i ≠ ⊤ := by
  have h0 := congrFun h ix0
  dsimp only [fn, fn_part1] at h0
  obtain ⟨h13, -⟩ := IntOp.andi_eq_one.1 h0
  obtain ⟨h8, -⟩ := IntOp.andi_eq_one.1 h13
  obtain ⟨-, h7⟩ := IntOp.andi_eq_one.1 h8
  have hi := Host.reduce_andi_all _ _ _ _ _ h7 i
  exact real_of_abs_lt (a i) hi

end Cert.Pre_finite_inputs.Read

end
-- ==== Proof.Words.lean ====
/-
  The index word through the kernel's arithmetic.

  The kernel carries each index as a number, turns it back into a 32-bit word, clips the word to [0, 511] and
  compares it with the column numbers 0 … 511.  Over the extended reals a word's signed value is carried exactly
  and truncating it gives the word back; a word whose value is below 512 is not moved by the clip; and among the
  column numbers it equals exactly one, its own value.  So the row of 0/1 factors has its single one at the
  word's value, and a sum against it picks that term.
-/
import proofs.«410795_j76278619177037_3_alg».proof.Proof.Spec
import proofs.«410795_j76278619177037_3_alg».proof.Proof.LibWordArith

noncomputable section

namespace Cert.EmbedRow

open Idealize.ShloMosaic Cert.Gcn.WordArith

/-- A word's signed value, carried as a real number and truncated back to a word, is the word. -/
theorem fptosi_sitofp (w : BitVec 32) : Ideal.fptosi 32 (((w.toInt : ℝ) : EReal)) = w := by
  unfold Ideal.fptosi
  rw [Ideal.toIntClamped_coe]
  have hfl : (if (0 : ℝ) ≤ ((w.toInt : ℤ) : ℝ) then ⌊((w.toInt : ℤ) : ℝ)⌋ else ⌈((w.toInt : ℤ) : ℝ)⌉) = w.toInt := by
    split <;> simp
  rw [hfl]
  have h1 := BitVec.toInt_lt (x := w)
  have h2 := BitVec.le_toInt (x := w)
  have e : max (-((2 ^ (32 - 1) : ℕ) : ℤ)) (min (((2 ^ (32 - 1) : ℕ) : ℤ) - 1) w.toInt) = w.toInt := by
    norm_num at h1 h2 ⊢
    omega
  rw [e]
  exact BitVec.ofInt_toInt

/-- A word whose value is below 512 is not moved by the clip to [0, 511]. -/
theorem clip_small {w : BitVec 32} (h : w.toNat < 512) : IntOp.minsi 511#32 (IntOp.maxsi 0#32 w) = w := by
  rw [maxsi_zero_small (by omega)]
  have hti := toInt_of_small (a := w) (by omega)
  have h511 : (511#32 : BitVec 32).toInt = 511 := by decide
  have hs : (511#32 : BitVec 32).slt w = false := by
    simp only [BitVec.slt, hti, h511, decide_eq_false_iff_not]
    omega
  unfold IntOp.minsi
  rw [hs]
  rfl

/-- The 0/1 value of "word w is word c", as the kernel computes it: the comparison's bit widened to a word and
    read as a number. -/
def hot (w c : BitVec 32) : EReal := ((((IntOp.cmpi .eq w c).setWidth 32).toInt : ℝ) : EReal)

theorem hot_self (w : BitVec 32) : hot w w = 1 := by
  have h : IntOp.cmpi .eq w w = 1#1 := StableHlo.Predicate.cmpi_eq_iff.2 rfl
  unfold hot
  rw [h]
  have : ((1#1 : BitVec 1).setWidth 32).toInt = 1 := by decide
  rw [this]
  simp

theorem hot_ne {w c : BitVec 32} (hne : w ≠ c) : hot w c = 0 := by
  have h : IntOp.cmpi .eq w c = 0#1 := by
    rcases BitVec.eq_zero_or_eq_one (IntOp.cmpi .eq w c) with h0 | h1
    · exact h0
    · exact absurd (StableHlo.Predicate.cmpi_eq_iff.1 h1) hne
  unfold hot
  rw [h]
  have : ((0#1 : BitVec 1).setWidth 32).toInt = 0 := by decide
  rw [this]
  simp

/-- A sum over the 512 column numbers against the 0/1 factors of a word below 512 is the term at the word's value. -/
theorem sum_hot {w : BitVec 32} (h : w.toNat < 512) (cols : Fin 512 → BitVec 32)
    (hcols : ∀ k : Fin 512, cols k = BitVec.ofNat 32 k.val) (f : Fin 512 → EReal) :
    ∑ k : Fin 512, hot w (cols k) * f k = f ⟨w.toNat, h⟩ := by
  refine sum_onehot_mul (fun k => hot w (cols k)) f ⟨w.toNat, h⟩ ?_ ?_
  · show hot w (cols ⟨w.toNat, h⟩) = 1
    rw [hcols, BitVec.ofNat_toNat, BitVec.setWidth_eq]
    exact hot_self w
  · intro k hk
    show hot w (cols k) = 0
    refine hot_ne ?_
    rw [hcols]
    intro e
    apply hk
    apply Fin.ext
    have := congrArg BitVec.toNat e
    rw [BitVec.toNat_ofNat] at this
    have hk' := k.isLt
    show k.val = w.toNat
    omega

end Cert.EmbedRow

end
-- ==== Proof.KernelPayload.lean ====
/-
  The kernel body's arithmetic at one entry of a block.

  The body loads four blocks: x0, 8192 rows of z; x1, the packed table (512 rows, 256 columns: the table's row
  in columns 0–127 and a second copy's residual in columns 128–255); x2, the 8192 rows' (index, scale) pairs,
  the index stored as a number; x3, a table whose row 0 lists the column numbers 0 … 511.  It turns each row's
  index back into a word, clips it to [0, 511], compares it with every column number, and multiplies the
  resulting 0/1 matrix with the packed table; the two halves of the product's row are added, scaled by the
  row's scale and added to z.  At entry (p, q):

      x0[p, q] + (Σ_k hot(p, k) · x1[k, q] + Σ_k hot(p, k) · x1[k, 128 + q]) · x2[p, 1],

  with hot(p, k) the 0/1 value of "the clipped index word of row p is x3[0, k]".
-/
import proofs.«410795_j76278619177037_3_alg».proof.Proof.Gen.KernelIdeal.Skeleton
import proofs.«410795_j76278619177037_3_alg».proof.Proof.Words
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.EmbedRow

/-! ## The matrix product's operand indices -/

theorem lhs_0 (j : S8192x256.Idx) (k : dot_S8192x512_S512x256_S8192x256_1_0_0_1_n_n.contr.Idx) :
    (dot_S8192x512_S512x256_S8192x256_1_0_0_1_n_n.lhsIdx j k 0).val = (j 0).val := rfl
theorem lhs_1 (j : S8192x256.Idx) (k : dot_S8192x512_S512x256_S8192x256_1_0_0_1_n_n.contr.Idx) :
    (dot_S8192x512_S512x256_S8192x256_1_0_0_1_n_n.lhsIdx j k 1).val = (k ⟨0, by decide⟩).val := rfl
theorem rhs_0 (j : S8192x256.Idx) (k : dot_S8192x512_S512x256_S8192x256_1_0_0_1_n_n.contr.Idx) :
    (dot_S8192x512_S512x256_S8192x256_1_0_0_1_n_n.rhsIdx j k 0).val = (k ⟨0, by decide⟩).val := rfl
theorem rhs_1 (j : S8192x256.Idx) (k : dot_S8192x512_S512x256_S8192x256_1_0_0_1_n_n.contr.Idx) :
    (dot_S8192x512_S512x256_S8192x256_1_0_0_1_n_n.rhsIdx j k 1).val = (j 1).val := rfl

/-- The product into a zero accumulator, at (p, c): the sum over the 512 contracted positions. -/
theorem matmul_ix (lhs : FVec Ideal S8192x512 .bf16) (rhs : FVec Ideal S512x256 .bf16) (p : Fin 8192) (c : Fin 256) :
    matmul dot_S8192x512_S512x256_S8192x256_1_0_0_1_n_n none lhs rhs (constant S8192x256 .f32 0x00000000#32) (ix2 p c)
      = ∑ k : Fin 512, lhs (ix2 p k) * rhs (ix2 k c) := by
  refine (Ideal.matmul_constant_zero_apply dot_S8192x512_S512x256_S8192x256_1_0_0_1_n_n none lhs rhs (ix2 p c)).trans ?_
  rw [← Equiv.sum_comp (contrEquiv1 dot_S8192x512_S512x256_S8192x256_1_0_0_1_n_n 512 rfl rfl).symm]
  refine Finset.sum_congr rfl fun k _ => ?_
  have hk := contrEquiv1_symm_val dot_S8192x512_S512x256_S8192x256_1_0_0_1_n_n 512 rfl rfl k
  have e1 : dot_S8192x512_S512x256_S8192x256_1_0_0_1_n_n.lhsIdx (ix2 p c)
      ((contrEquiv1 dot_S8192x512_S512x256_S8192x256_1_0_0_1_n_n 512 rfl rfl).symm k) = ix2 p k := by
    funext a; apply Fin.ext
    match a with
    | ⟨0, _⟩ => exact lhs_0 _ _
    | ⟨1, _⟩ => exact (lhs_1 _ _).trans hk
  have e2 : dot_S8192x512_S512x256_S8192x256_1_0_0_1_n_n.rhsIdx (ix2 p c)
      ((contrEquiv1 dot_S8192x512_S512x256_S8192x256_1_0_0_1_n_n 512 rfl rfl).symm k) = ix2 k c := by
    funext a; apply Fin.ext
    match a with
    | ⟨0, _⟩ => exact (rhs_0 _ _).trans hk
    | ⟨1, _⟩ => exact rhs_1 _ _
  rw [e1, e2]

/-! ## Layout operations of the body, read at an entry -/

/-- A column broadcast along the rows reads, at (p, c), the column at (p, 0). -/
theorem bcast_col {α : Type} {n m : ℕ} (hn : n ≠ 1) (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    rw [if_neg hn]
  | ⟨1, _⟩ =>
    show (0 : ℕ) = if (1 : ℕ) = 1 then 0 else c.val
    rw [if_pos rfl]

/-! ## The payload at an entry -/

/-- Row p's index word after the clip to [0, 511]. -/
def rowWord (x2 : FVec Ideal S8192x2 .f32) (p : Fin 8192) : BitVec 32 :=
  IntOp.minsi 511#32 (IntOp.maxsi 0#32 (Ideal.fptosi 32 (x2 (ix2 p (0 : Fin 2)))))

/-- The rows' clipped index words, as the body computes them from column 0 of the (index, scale) block. -/
def words (x2 : FVec Ideal S8192x2 .f32) : IVec S8192x1 32 :=
  minsi (broadcast S8192x1 511#32) (maxsi (broadcast S8192x1 0#32)
    (fptosi 32 (extractStridedSlice (s := S8192x2) S8192x1 ![0, 0] x2 slices_S8192x2_o0_0_S8192x1)))

/-- The 0/1 matrix: row p has its one where row 0 of the column-number table holds row p's word. -/
def onehot (x2 : FVec Ideal S8192x2 .f32) (x3 : IVec S8x512 32) : FVec Ideal S8192x512 .bf16 :=
  truncf .bf16 (sitofp .f32 (extui 32 (cmpi .eq (broadcastTo (s := S8192x1) S8192x512 (words x2) broadcasts_S8192x1_S8192x512)
    (broadcastTo (s := S1x512) S8192x512 (extractStridedSlice (s := S8x512) S1x512 ![0, 0] x3 slices_S8x512_o0_0_S1x512) broadcasts_S1x512_S8192x512))
    natLt_1_32)) bitsLt_bf16_f32

theorem words_apply (x2 : FVec Ideal S8192x2 .f32) (p : Fin 8192) : words x2 (ix2 p (0 : Fin 1)) = rowWord x2 p := by
  show IntOp.minsi 511#32 (IntOp.maxsi 0#32 (Ideal.fptosi 32
    (extractStridedSlice (s := S8192x2) S8192x1 ![0, 0] x2 slices_S8192x2_o0_0_S8192x1 (ix2 p (0 : Fin 1))))) = _
  rw [slice2_axis1_apply 0 x2 _ p (0 : Fin 1) (0 : Fin 2) rfl]
  rfl

theorem onehot_apply (x2 : FVec Ideal S8192x2 .f32) (x3 : IVec S8x512 32) (p : Fin 8192) (k : Fin 512) :
    onehot x2 x3 (ix2 p k) = hot (rowWord x2 p) (x3 (ix2 (0 : Fin 8) k)) := by
  show ((((IntOp.cmpi .eq (broadcastTo (s := S8192x1) S8192x512 (words x2) broadcasts_S8192x1_S8192x512 (ix2 p k))
    (broadcastTo (s := S1x512) S8192x512 (extractStridedSlice (s := S8x512) S1x512 ![0, 0] x3 slices_S8x512_o0_0_S1x512) broadcasts_S1x512_S8192x512
      (ix2 p k))).setWidth 32).toInt : ℝ) : EReal) = _
  rw [bcast_col (by decide) _ _ p k, broadcastTo_1b_ab_apply _ _ p k,
    slice2_axis0_apply 0 x3 _ (0 : Fin 1) k (0 : Fin 8) rfl, words_apply]
  rfl

/-- The payload with its pieces named. -/
theorem pay_eq (x2 : FVec Ideal S8192x2 .f32) (x3 : IVec S8x512 32) (x1 : FVec Ideal S512x256 .bf16)
    (x0 : FVec Ideal S8192x128 .f32) :
    k0_pay1 x2 x3 x1 x0
      = addf x0 (mulf
          (addf
            (extractStridedSlice (s := S8192x256) S8192x128 ![0, 0]
              (matmul dot_S8192x512_S512x256_S8192x256_1_0_0_1_n_n none (onehot x2 x3) x1 (constant S8192x256 .f32 0x00000000#32))
              slices_S8192x256_o0_0_S8192x128)
            (extractStridedSlice (s := S8192x256) S8192x128 ![0, 128]
              (matmul dot_S8192x512_S512x256_S8192x256_1_0_0_1_n_n none (onehot x2 x3) x1 (constant S8192x256 .f32 0x00000000#32))
              slices_S8192x256_o0_128_S8192x128))
          (broadcastTo (s := S8192x1) S8192x128 (extractStridedSlice (s := S8192x2) S8192x1 ![0, 1] x2 slices_S8192x2_o0_1_S8192x1)
            broadcasts_S8192x1_S8192x128)) := by
  unfold k0_pay1 onehot words
  simp only [shapeCast_self]

theorem pay_apply (x2 : FVec Ideal S8192x2 .f32) (x3 : IVec S8x512 32) (x1 : FVec Ideal S512x256 .bf16)
    (x0 : FVec Ideal S8192x128 .f32) (p : Fin 8192) (q : Fin 128) :
    k0_pay1 x2 x3 x1 x0 (ix2 p q)
      = x0 (ix2 p q)
        + ((∑ k : Fin 512, hot (rowWord x2 p) (x3 (ix2 (0 : Fin 8) k)) * x1 (ix2 k (⟨q.val, by omega⟩ : Fin 256)))
          + (∑ k : Fin 512, hot (rowWord x2 p) (x3 (ix2 (0 : Fin 8) k)) * x1 (ix2 k (⟨128 + q.val, by omega⟩ : Fin 256))))
          * x2 (ix2 p (1 : Fin 2)) := by
  rw [pay_eq]
  show x0 (ix2 p q)
    + (extractStridedSlice (s := S8192x256) S8192x128 ![0, 0] _ slices_S8192x256_o0_0_S8192x128 (ix2 p q)
      + extractStridedSlice (s := S8192x256) S8192x128 ![0, 128] _ slices_S8192x256_o0_128_S8192x128 (ix2 p q))
      * broadcastTo (s := S8192x1) S8192x128 _ broadcasts_S8192x1_S8192x128 (ix2 p q) = _
  rw [slice2_axis1_apply 0 _ _ p q (⟨q.val, by omega⟩ : Fin 256) (by simp),
    slice2_axis1_apply 128 _ _ p q (⟨128 + q.val, by omega⟩ : Fin 256) rfl,
    matmul_ix, matmul_ix, bcast_col (by decide) _ _ p q,
    slice2_axis1_apply 1 x2 _ p (0 : Fin 1) (1 : Fin 2) rfl]
  simp only [onehot_apply]

end Cert.KernelIdeal.Payload

end
-- ==== Proof.KernelArrays.lean ====
/-
  The arrays the kernel's region reads that the host computes first, as functions of the arguments.

  * The packed table, 512 rows by 256 columns: columns 0–127 hold the table transposed (row k is column k of a),
    columns 128–255 hold the transposed table less itself (a change of float format being the identity over the
    extended reals): entry (k, q) is a[q, k] and entry (k, 128 + q) is a[q, k] − a[q, k].
  * The (index, scale) pairs, 1048576 rows by 2 columns: entry (r, 0) is the index word of row r read as a signed
    number, entry (r, 1) is the scale of row r.
  * The column-number table, 8 rows by 512 columns: every row lists the words 0, 1, …, 511.
-/
import proofs.«410795_j76278619177037_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The transposed table, as the host computes it from the launch contents of a. -/
abbrev tableT (c : Dev nD) : FVec Ideal S512x128 .f32 :=
  transpose S512x128 [1, 0] (m ((c : Thread nD τ).loc main_arg1) : FVec Ideal S128x512 .f32) transposes_S128x512_S512x128_1_0

set_option maxRecDepth 8192 in
theorem V_packed (c : Dev nD) :
    (V m c main_v5 : FVec Ideal S512x256 .bf16)
      = concatenate S512x256 1
          [⟨S512x128, (truncf .bf16 (tableT m c) bitsLt_bf16_f32 : FVec Ideal S512x128 .bf16)⟩,
           ⟨S512x128, (truncf .bf16 (subf (tableT m c) (extf .f32 (truncf .bf16 (tableT m c) bitsLt_bf16_f32 : FVec Ideal S512x128 .bf16) bitsLt_bf16_f32)) bitsLt_bf16_f32 : FVec Ideal S512x128 .bf16)⟩]
          concatenates_S512x128_S512x128_S512x256_d1 := by
  dsimp only [Gen.V, Gen.hostOps0]
  after_results <;> rfl

set_option maxRecDepth 8192 in
theorem V_pairs (c : Dev nD) :
    (V m c main_v9 : FVec Ideal S1048576x2 .f32)
      = concatenate S1048576x2 1
          [⟨S1048576x1, (shapeCast S1048576x1 (sitofp .f32 (m ((c : Thread nD τ).loc main_arg2) : IVec S1048576 32) : FVec Ideal S1048576 .f32) shapeCasts_S1048576_S1048576x1 : FVec Ideal S1048576x1 .f32)⟩,
           ⟨S1048576x1, (shapeCast S1048576x1 (m ((c : Thread nD τ).loc main_arg3) : FVec Ideal S1048576 .f32) shapeCasts_S1048576_S1048576x1 : FVec Ideal S1048576x1 .f32)⟩]
          concatenates_S1048576x1_S1048576x1_S1048576x2_d1 := by
  dsimp only [Gen.V, Gen.hostOps0]
  after_results <;> rfl

set_option maxRecDepth 8192 in
theorem V_numbers (c : Dev nD) :
    (V m c main_v12 : IVec S8x512 32)
      = broadcastInDim S8x512 ![0, 1] bcast_S1x512_S8x512_0_1
          (broadcastInDim S1x512 ![1] bcast_S512_S1x512_1 (iotaInDim S512 32 0)) := by
  dsimp only [Gen.V, Gen.hostOps0]
  after_results <;> rfl

end Cert.KernelIdeal.Arrays

end
-- ==== Proof.KernelValue.lean ====
/-
  The kernel's result array, entry by entry.

  Grid point t works on rows 8192 t … 8192 t + 8191: its z block and its (index, scale) block are those rows of
  their arrays, and the packed table and the column-number table are read whole at every point.  At entry (p, q)
  of its block the body computes (the payload module)
      z[r, q] + (Σ_k hot(w, k) · P[k, q] + Σ_k hot(w, k) · P[k, 128 + q]) · scale r,        r = 8192 t + p,
  where w is row r's index word after the round trip through a number and the clip, P the packed table and k runs
  over the column numbers.  Under the precondition w is the index word itself, with value below 512, so each sum is
  the packed table's entry in row w: a[q, w] and a[q, w] − a[q, w].  The table's entries being real numbers, their
  sum is a[q, w], and the entry is the specification's.  The 128 blocks tile the result array, so the array after
  the run is the specification.
-/
import proofs.«410795_j76278619177037_3_alg».proof.Proof.Gen.KernelIdeal.Value
import proofs.«410795_j76278619177037_3_alg».proof.Proof.KernelPayload
import proofs.«410795_j76278619177037_3_alg».proof.Proof.KernelArrays
import proofs.«410795_j76278619177037_3_alg».proof.Proof.Words
import Idealize.ShloMosaic.Lib.Pipeline.Value
import Idealize.ShloMosaic.Lib.ValueLayout

noncomputable section

namespace Cert.KernelIdeal.Hand

open Cert.KernelIdeal Cert.KernelIdeal.Gen Cert.KernelIdeal.Value Cert.KernelIdeal.Payload Cert.KernelIdeal.Arrays
open Idealize.ShloMosaic Idealize.ShloMosaic.TcCoe Idealize.SL.Sem Idealize.ShloMosaic.ValueIdx Cert.EmbedRow
open Idealize.ShloMosaic.Pipeline (Dat)

variable (m : (ℓ : Loc nD τ sig) → Buf (Elt Ideal) ℓ) (ρ : Dev nD → PrngReg)

/-- The four argument arrays as launched, at their literal types. -/
abbrev zA (c : Dev nD) : FVec Ideal S1048576x128 .f32 := m ((c : Thread nD τ).loc main_arg0)
abbrev aA (c : Dev nD) : FVec Ideal S128x512 .f32 := m ((c : Thread nD τ).loc main_arg1)
abbrev iA (c : Dev nD) : IVec S1048576 32 := m ((c : Thread nD τ).loc main_arg2)
abbrev sA (c : Dev nD) : FVec Ideal S1048576 .f32 := m ((c : Thread nD τ).loc main_arg3)

theorem hz : (![0, 0] : Fin 2 → Nat) = fun _ => 0 := funext fun a => by fin_cases a <;> rfl

/-- The printed index maps over the grid: windows 0, 2 and 4 move one block of rows per point, windows 1 and 3 stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := by
  have h : t.val < cfg0.N := t.isLt
  have e : cfg0.N = 128 := N_0
  omega

/-! ## The host-computed arrays at an entry -/

/-- A vector laid out as a column reads, at (r, 0), the vector at r. -/
theorem shapeCast_col_apply {α : Type} {n : ℕ} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h (ix2 r (0 : Fin 1)) (ix1 r) (by
    rw [Shape.rowMajor_val_one, Shape.rowMajor_val_two]
    show r.val = r.val * 1 + 0
    omega)

theorem packed_lo (c : Dev nD) (k : Fin 512) (q : Fin 128) :
    (V m c main_v5 : FVec Ideal S512x256 .bf16) (ix2 k (⟨q.val, by omega⟩ : Fin 256)) = aA m c (ix2 q k) := by
  rw [V_packed]
  refine (concatenate_pair_apply_left (t := S512x256) (s₁ := S512x128) (s₂ := S512x128) (1 : Fin 2) _ _
    concatenates_S512x128_S512x128_S512x256_d1 (ix2 k (⟨q.val, by omega⟩ : Fin 256)) rfl (ix2 k q) (fun b => by
      match b with
      | ⟨0, _⟩ => rfl
      | ⟨1, _⟩ => rfl)).trans ?_
  show tableT m c (ix2 k q) = _
  exact transpose_ix2_apply (aA m c) transposes_S128x512_S512x128_1_0 k q

theorem packed_hi (c : Dev nD) (k : Fin 512) (q : Fin 128) :
    (V m c main_v5 : FVec Ideal S512x256 .bf16) (ix2 k (⟨128 + q.val, by omega⟩ : Fin 256))
      = aA m c (ix2 q k) - aA m c (ix2 q k) := by
  rw [V_packed]
  refine (concatenate_pair_apply_right (t := S512x256) (s₁ := S512x128) (s₂ := S512x128) (1 : Fin 2) _ _
    concatenates_S512x128_S512x128_S512x256_d1 (ix2 k (⟨128 + q.val, by omega⟩ : Fin 256)) rfl rfl (ix2 k q) (fun b hb => by
      match b with
      | ⟨0, _⟩ => rfl
      | ⟨1, _⟩ => exact absurd (Fin.ext rfl) hb) (by show q.val + 128 = 128 + q.val; omega)).trans ?_
  have e : tableT m c (ix2 k q) = aA m c (ix2 q k) := transpose_ix2_apply (aA m c) transposes_S128x512_S512x128_1_0 k q
  show tableT m c (ix2 k q) - tableT m c (ix2 k q) = _
  rw [e]

theorem pairs_idx (c : Dev nD) (r : Fin 1048576) :
    (V m c main_v9 : FVec Ideal S1048576x2 .f32) (ix2 r (0 : Fin 2)) = ((((iA m c (ix1 r)).toInt : ℝ)) : EReal) := by
  rw [V_pairs]
  refine (concatenate_pair_apply_left (t := S1048576x2) (s₁ := S1048576x1) (s₂ := S1048576x1) (1 : Fin 2) _ _
    concatenates_S1048576x1_S1048576x1_S1048576x2_d1 (ix2 r (0 : Fin 2)) rfl (ix2 r (0 : Fin 1)) (fun b => by
      match b with
      | ⟨0, _⟩ => rfl
      | ⟨1, _⟩ => rfl)).trans ?_
  rw [shapeCast_col_apply]
  rfl

theorem pairs_scale (c : Dev nD) (r : Fin 1048576) :
    (V m c main_v9 : FVec Ideal S1048576x2 .f32) (ix2 r (1 : Fin 2)) = sA m c (ix1 r) := by
  rw [V_pairs]
  refine (concatenate_pair_apply_right (t := S1048576x2) (s₁ := S1048576x1) (s₂ := S1048576x1) (1 : Fin 2) _ _
    concatenates_S1048576x1_S1048576x1_S1048576x2_d1 (ix2 r (1 : Fin 2)) rfl rfl (ix2 r (0 : Fin 1)) (fun b hb => by
      match b with
      | ⟨0, _⟩ => rfl
      | ⟨1, _⟩ => exact absurd (Fin.ext rfl) hb) (by show (0 : ℕ) + 1 = 1; rfl)).trans ?_
  rw [shapeCast_col_apply]

theorem numbers_row0 (c : Dev nD) (k : Fin 512) :
    (V m c main_v12 : IVec S8x512 32) (ix2 (0 : Fin 8) k) = BitVec.ofNat 32 k.val := by
  rw [V_numbers]
  refine (broadcastInDim_apply _ _ _ (ix2 (0 : Fin 8) k) (ix2 (0 : Fin 1) k) (fun a => by
    match a with
    | ⟨0, _⟩ => exact (if_pos rfl).symm
    | ⟨1, _⟩ => exact (if_neg (by show ¬ ((512 : ℕ) = 1); decide)).symm)).trans ?_
  refine (broadcastInDim_apply _ _ _ (ix2 (0 : Fin 1) k) (ix1 k) (fun a => by
    match a with
    | ⟨0, _⟩ => exact (if_neg (by show ¬ ((512 : ℕ) = 1); decide)).symm)).trans ?_
  rfl

/-! ## The windows' blocks at an entry -/

theorem zblk_apply (c : Dev nD) (t : Fin cfg0.N) (p : Fin 8192) (q : Fin 128) (r : Fin 1048576)
    (hr : r.val = t.val * 8192 + p.val) :
    (iblk m c 0 t : Vec Ideal S8192x128 .f32) (ix2 p q) = zA m c (ix2 r q) := by
  obtain ⟨e0, e1, -⟩ := idx_facts t
  show V m c main_arg0 (((cfg0.win 0).blk t).view.emb (ix2 p q)) = m ((c : Thread nD τ).loc main_arg0) (ix2 r q)
  rw [← V_main_arg0 m c]
  refine congrArg (V m c main_arg0) (funext fun a => Fin.ext ?_)
  match a with
  | ⟨0, _⟩ => show win0_0.index t (0 : Fin 2) * 8192 + 1 * p.val = r.val; rw [e0, hr]; omega
  | ⟨1, _⟩ => show win0_0.index t (1 : Fin 2) * 128 + 1 * q.val = q.val; rw [e1]; omega

theorem tblk_apply (c : Dev nD) (t : Fin cfg0.N) (k : Fin 512) (cc : Fin 256) :
    (iblk m c 1 t : Vec Ideal S512x256 .bf16) (ix2 k cc) = (V m c main_v5 : FVec Ideal S512x256 .bf16) (ix2 k cc) := by
  obtain ⟨-, -, e0, e1, -⟩ := idx_facts t
  show V m c main_v5 (((cfg0.win 1).blk t).view.emb (ix2 k cc)) = V m c main_v5 (ix2 k cc)
  refine congrArg (V m c main_v5) (funext fun a => Fin.ext ?_)
  match a with
  | ⟨0, _⟩ => show win0_1.index t (0 : Fin 2) * 512 + 1 * k.val = k.val; rw [e0]; omega
  | ⟨1, _⟩ => show win0_1.index t (1 : Fin 2) * 256 + 1 * cc.val = cc.val; rw [e1]; omega

theorem pblk_apply (c : Dev nD) (t : Fin cfg0.N) (p : Fin 8192) (e : Fin 2) (r : Fin 1048576)
    (hr : r.val = t.val * 8192 + p.val) :
    (iblk m c 2 t : Vec Ideal S8192x2 .f32) (ix2 p e) = (V m c main_v9 : FVec Ideal S1048576x2 .f32) (ix2 r e) := by
  obtain ⟨-, -, -, -, e0, e1, -⟩ := idx_facts t
  show V m c main_v9 (((cfg0.win 2).blk t).view.emb (ix2 p e)) = V m c main_v9 (ix2 r e)
  refine congrArg (V m c main_v9) (funext fun a => Fin.ext ?_)
  match a with
  | ⟨0, _⟩ => show win0_2.index t (0 : Fin 2) * 8192 + 1 * p.val = r.val; rw [e0, hr]; omega
  | ⟨1, _⟩ => show win0_2.index t (1 : Fin 2) * 2 + 1 * e.val = e.val; rw [e1]; omega

theorem nblk_apply (c : Dev nD) (t : Fin cfg0.N) (r8 : Fin 8) (k : Fin 512) :
    (iblk m c 3 t : Vec Ideal S8x512 .i32) (ix2 r8 k) = (V m c main_v12 : IVec S8x512 32) (ix2 r8 k) := by
  obtain ⟨-, -, -, -, -, -, e0, e1, -⟩ := idx_facts t
  show V m c main_v12 (((cfg0.win 3).blk t).view.emb (ix2 r8 k)) = V m c main_v12 (ix2 r8 k)
  refine congrArg (V m c main_v12) (funext fun a => Fin.ext ?_)
  match a with
  | ⟨0, _⟩ => show win0_3.index t (0 : Fin 2) * 8 + 1 * r8.val = r8.val; rw [e0]; omega
  | ⟨1, _⟩ => show win0_3.index t (1 : Fin 2) * 512 + 1 * k.val = k.val; rw [e1]; omega

/-- Entry (p, q) of the output window's block at point t is entry (8192 t + p, q) of the result array. -/
theorem emb_out (t : Fin cfg0.N) (p : Fin 8192) (q : Fin 128) (r : Fin 1048576) (hr : r.val = t.val * 8192 + p.val) :
    ((cfg0.win 4).blk t).view.emb (ix2 p q) = (ix2 r q : S1048576x128.Idx) := by
  obtain ⟨-, -, -, -, -, -, -, -, e0, e1⟩ := idx_facts t
  funext a
  apply Fin.ext
  match a with
  | ⟨0, _⟩ => show win0_4.index t (0 : Fin 2) * 8192 + 1 * p.val = r.val; rw [e0, hr]; omega
  | ⟨1, _⟩ => show win0_4.index t (1 : Fin 2) * 128 + 1 * q.val = q.val; rw [e1]; omega

/-! ## What a point writes back -/

variable (hidx : ∀ (c : Dev nD) (r : Fin 1048576), (iA m c (ix1 r)).toNat < 512)
  (hreal : ∀ (c : Dev nD) (i : S128x512.Idx), aA m c i ≠ ⊥ ∧ aA m c i ≠ ⊤)
include hidx hreal

/-- The body's result at entry (p, q) of point t's block is the specification's entry (8192 t + p, q). -/
theorem pay_spec (c : Dev nD) (t : Fin cfg0.N) (p : Fin 8192) (q : Fin 128) (r : Fin 1048576)
    (hr : r.val = t.val * 8192 + p.val) :
    k0_pay1 (iblk m c 2 t) (iblk m c 3 t) (iblk m c 1 t) (iblk m c 0 t) (ix2 p q)
      = specAt (zA m c) (aA m c) (iA m c) (sA m c) r q := by
  have hw : rowWord (iblk m c 2 t) p = iA m c (ix1 r) := by
    unfold rowWord
    rw [pblk_apply m c t p (0 : Fin 2) r hr, pairs_idx, fptosi_sitofp, clip_small (hidx c r)]
  have hcols : ∀ k : Fin 512, (iblk m c 3 t : Vec Ideal S8x512 .i32) (ix2 (0 : Fin 8) k) = BitVec.ofNat 32 k.val :=
    fun k => (nblk_apply m c t (0 : Fin 8) k).trans (numbers_row0 m c k)
  rw [pay_apply (iblk m c 2 t) (iblk m c 3 t) (iblk m c 1 t) (iblk m c 0 t) p q, hw,
    sum_hot (hidx c r) (fun k => (iblk m c 3 t : Vec Ideal S8x512 .i32) (ix2 (0 : Fin 8) k)) hcols
      (fun k => (iblk m c 1 t : Vec Ideal S512x256 .bf16) (ix2 k (⟨q.val, by omega⟩ : Fin 256))),
    sum_hot (hidx c r) (fun k => (iblk m c 3 t : Vec Ideal S8x512 .i32) (ix2 (0 : Fin 8) k)) hcols
      (fun k => (iblk m c 1 t : Vec Ideal S512x256 .bf16) (ix2 k (⟨128 + q.val, by omega⟩ : Fin 256))),
    zblk_apply m c t p q r hr, tblk_apply, tblk_apply, packed_lo, packed_hi,
    pblk_apply m c t p (1 : Fin 2) r hr, pairs_scale,
    add_sub_self_of_real _ (hreal c _).1 (hreal c _).2]
  unfold specAt
  rw [rowOf_of_lt (hidx c r)]

/-- Point t writes back block t of the specification. -/
theorem flushed_eq (c : Dev nD) (t : Fin cfg0.N) :
    (dats m 0 c).flushed 4 t
      = ((cfg0.win 4).blk t).view.read (Elt Ideal) (spec (zA m c) (aA m c) (iA m c) (sA m c)) := by
  rw [Value.flushed4]
  unfold out0_4
  rw [View.canon_unit_zero hz]
  simp only [View.ld_unit_zero (S := S8192x128) hz, View.ld_unit_zero (S := S8192x2) hz,
    View.ld_unit_zero (S := S8x512) hz, View.ld_unit_zero (S := S512x256) hz]
  funext j
  obtain ⟨p, q, rfl⟩ : ∃ (p : Fin 8192) (q : Fin 128), j = ix2 p q := ⟨j 0, j 1, eq_ix2 j⟩
  have ht := point_lt t
  have hp := p.isLt
  show k0_pay1 (iblk m c 2 t) (iblk m c 3 t) (iblk m c 1 t) (iblk m c 0 t) (ix2 p q)
    = spec (zA m c) (aA m c) (iA m c) (sA m c) (((cfg0.win 4).blk t).view.emb (ix2 p q))
  rw [emb_out t p q ⟨t.val * 8192 + p.val, by omega⟩ rfl, spec_ix2]
  exact pay_spec m hidx hreal c t p q ⟨t.val * 8192 + p.val, by omega⟩ rfl

/-! ## The array after the run -/

omit hidx hreal in
/-- An index of the result array is in point t's block iff each coordinate is in the block's range on its axis. -/
theorem mem_blk (t : Fin cfg0.N) (i : S1048576x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v13).slice (win0_4.rect t)).set ↔ _
  rw [View.set_slice_whole, Rect.mem_set_unit]
  exact Iff.rfl

/-- The result array after the run is the specification: row r lies in the block of point r / 8192. -/
theorem final (c : Dev nD) : (dats m 0 c).arrAt 4 cfg0.N = spec (zA m c) (aA m c) (iA m c) (sA m c) :=
  (dats m 0 c).arrAt_eq_of_cover 4 (spec (zA m c) (aA m c) (iA m c) (sA m c))
    (fun t _ => flushed_eq m hidx hreal c t) (fun i => by
      have hi0 : (i 0).val < 1048576 := idx2_lt0 i
      have hi1 : (i 1).val < 128 := idx2_lt1 i
      have hN : cfg0.N = 128 := N_0
      refine ⟨⟨(i 0).val / 8192, by rw [hN]; omega⟩, flush0_4 _, ?_⟩
      rw [mem_blk]
      obtain ⟨-, -, -, -, -, -, -, -, e0, e1⟩ := idx_facts ⟨(i 0).val / 8192, by rw [hN]; omega⟩
      intro a
      match a with
      | ⟨0, _⟩ =>
        show win0_4.index _ (0 : Fin 2) * 8192 ≤ (i 0).val ∧ (i 0).val < win0_4.index _ (0 : Fin 2) * 8192 + 8192
        rw [e0]
        show (i 0).val / 8192 * 8192 ≤ (i 0).val ∧ (i 0).val < (i 0).val / 8192 * 8192 + 8192
        omega
      | ⟨1, _⟩ =>
        show win0_4.index _ (1 : Fin 2) * 128 ≤ (i 1).val ∧ (i 1).val < win0_4.index _ (1 : Fin 2) * 128 + 128
        rw [e1]
        omega)

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v13) = spec (zA m c) (aA m c) (iA m c) (sA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m hidx hreal c), (h c).2⟩)
    (Value.run_blocks m ρ)

end Cert.KernelIdeal.Hand

end
-- ==== Proof.lean ====
/-
  A row gather by a 0/1 matrix product against jnp.take.

  The kernel adds to each row of z a column of the table a, chosen by the row's index and scaled by the row's
  scale: out[r, q] = z[r, q] + a[q, idx r] · scale r.  It chooses the column with a matrix product: the index is
  compared with the column numbers 0 … 511, the resulting 0/1 row multiplies the table, and the product's row is
  the chosen column.  The table is kept as two halves, its values and the residual "values less values in a
  shorter float format"; over the extended reals a change of float format is the identity, the residual is
  a − a, and the halves' sum is a + (a − a).  The reference gathers the column directly (jnp.take) and computes
  the same sum of products.

  The two agree where the index is a column number, 0 ≤ idx r < 512, and the table's entries are real numbers:
  * jnp.take wraps a negative index and fills with a not-a-number past the end, while the kernel clips, so outside
    the range the two differ; the precondition keeps the indices in range.  In range the wrap does nothing, the
    reference's in-range test holds and its gather reads row idx r of the transposed table.
  * In range the kernel's clip does nothing either, the 0/1 row has its single one at idx r, and each product's
    entry is the table's entry there.
  * For a real number x, x + (x − x) = x (for an infinity it is not), which is where the table's finiteness is used.

  The pieces: the specification and the two arithmetic facts (Spec), the index word through the kernel's
  arithmetic (Words), the precondition read entry by entry (PreRead); the reference run and read at an entry
  (RefRun, RefOut, RefValue); the kernel body at an entry (KernelPayload), the host-computed arrays it reads
  (KernelArrays), and the result array after the run (KernelValue).  The frames of the two kernel programs are the
  generated ones; the reference's frame is its run with the result dropped; no operation of the kernel was
  rewritten when it was idealized, so there is nothing to preserve.
-/
import proofs.«410795_j76278619177037_3_alg».proof.Defs
import proofs.«410795_j76278619177037_3_alg».proof.Proof.Gen.Kernel
import proofs.«410795_j76278619177037_3_alg».proof.Proof.Gen.Kernel.Skeleton
import proofs.«410795_j76278619177037_3_alg».proof.Proof.Gen.Kernel.Launch
import proofs.«410795_j76278619177037_3_alg».proof.Proof.Gen.Kernel.Points
import proofs.«410795_j76278619177037_3_alg».proof.Proof.Gen.Kernel.Frame
import proofs.«410795_j76278619177037_3_alg».proof.Proof.Gen.KernelIdeal
import proofs.«410795_j76278619177037_3_alg».proof.Proof.Gen.KernelIdeal.Skeleton
import proofs.«410795_j76278619177037_3_alg».proof.Proof.Gen.KernelIdeal.Launch
import proofs.«410795_j76278619177037_3_alg».proof.Proof.Gen.KernelIdeal.Points
import proofs.«410795_j76278619177037_3_alg».proof.Proof.Gen.KernelIdeal.Frame
import proofs.«410795_j76278619177037_3_alg».proof.Proof.Gen.KernelIdeal.Value
import proofs.«410795_j76278619177037_3_alg».proof.Proof.Gen.ReferenceIdeal
import proofs.«410795_j76278619177037_3_alg».proof.Proof.Gen.Pre_finite_inputs
import proofs.«410795_j76278619177037_3_alg».proof.Proof.RefOut
import proofs.«410795_j76278619177037_3_alg».proof.Proof.RefValue
import proofs.«410795_j76278619177037_3_alg».proof.Proof.PreRead
import proofs.«410795_j76278619177037_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten when the kernel was idealized. -/
theorem preserves : Cert.preserves_Kernel_KernelIdeal := trivial

/-- Under the precondition both programs end with the specification of the argument arrays in their result. -/
theorem algebraic : Cert.algebraic_KernelIdeal_ReferenceIdeal := by
  intro m ρ m' ρ' hpre hagree
  have hidx : ∀ (c : Dev Cert.KernelIdeal.nD) (r : Fin 1048576), (Cert.KernelIdeal.Hand.iA m c (ix1 r)).toNat < 512 :=
    fun c r => Cert.Pre_finite_inputs.Read.idx_lt _ _ _ _ (hpre c) r
  have hreal : ∀ (c : Dev Cert.KernelIdeal.nD) (i : Cert.KernelIdeal.S128x512.Idx),
      Cert.KernelIdeal.Hand.aA m c i ≠ ⊥ ∧ Cert.KernelIdeal.Hand.aA m c i ≠ ⊤ :=
    fun c i => Cert.Pre_finite_inputs.Read.a_real _ _ _ _ (hpre c) i
  refine ⟨_, Cert.KernelIdeal.Hand.run m ρ hidx hreal, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.refOut_eq _ (hidx c) _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
